-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S18432x64 : Shape := ⟨2, ![18432, 64]⟩
abbrev S1024x64 : Shape := ⟨2, ![1024, 64]⟩
abbrev S_ : Shape := ⟨0, ![]⟩

class Facts : Prop where
  bcast_S_S18432x64 : S_.BroadcastsInDim S18432x64 (![] : Fin 0 → Fin S18432x64.rank)
  reducesTo_S18432x64_S_d0_1 : S18432x64.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S18432x64 .f32) (main_arg1 : FVec F S1024x64 .f32) : IVec S_ 1 :=
  let main_v0 : FVec F S18432x64 .f32 := Host.absf main_arg0
  let main_cst : FVec F S_ .f32 := constant S_ .f32 0x7F800000#32
  let main_v1 : FVec F S18432x64 .f32 := broadcastInDim S18432x64 ![] bcast_S_S18432x64 main_cst
  let main_v2 : IVec S18432x64 1 := cmpf .olt main_v0 main_v1
  let main_c : IVec S_ 1 := constantI S_ 1 1#1
  let main_v3 : IVec S_ 1 := (fun x v => Host.reduce IntOp.andi x v reducesTo_S18432x64_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Kernel.lean ====
abbrev S18432x64 : Shape := ⟨2, ![18432, 64]⟩
abbrev S1024x64 : Shape := ⟨2, ![1024, 64]⟩
abbrev S18432x1024 : Shape := ⟨2, ![18432, 1024]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 3
  | .vmem => 5
  | .smem => 0
  | _ => 0

abbrev bufTy : (tb : Table) → Fin (tcTables nBuf tb) → BufTy
  | .hbm, ⟨0, _⟩ => ⟨S18432x64, .f32⟩
  | .hbm, ⟨1, _⟩ => ⟨S1024x64, .f32⟩
  | .hbm, ⟨2, _⟩ => ⟨S18432x1024, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x1024, .f32⟩
  | .local _ .vmem, ⟨4, _⟩ => ⟨S1024x1024, .f32⟩
  | _, _ => ⟨S18432x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x64_S1024x64_0_0 : ∀ a, (![0, 0] : Fin 2 → Nat) a + S1024x64.size a ≤ S1024x64.size a
  h_S1024x64 : 0 < S1024x64.numel
  bitsLt_bf16_f32 : FTy.bits .bf16 < FTy.bits .f32
  reduces_S1024x64_S1024 : S1024x64.Reduces [1] S1024
  shapeCasts_S1024_S1024x1 : S1024.ShapeCasts S1024x1
  shapeCasts_S1024_S1x1024 : S1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S18432x64.size a
  hwx0_0 : ∀ i : grid0.Coords, EltTy.bits .f32 = 32 ∨ (Rect.block (s := S18432x64) S1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S18432x1024.size a
  hwx0_2 : ∀ i : grid0.Coords, EltTy.bits .f32 = 32 ∨ (Rect.block (s := S18432x1024) S1024x1024.size (cc0_transform_2 i) (hinb0_2 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S18432x64 : Shape := ⟨2, ![18432, 64]⟩
abbrev S1024x64 : Shape := ⟨2, ![1024, 64]⟩
abbrev S_ : Shape := ⟨0, ![]⟩
abbrev S18432 : Shape := ⟨1, ![18432]⟩
abbrev S18432x1 : Shape := ⟨2, ![18432, 1]⟩
abbrev S1024 : Shape := ⟨1, ![1024]⟩
abbrev S1x1024 : Shape := ⟨2, ![1, 1024]⟩
abbrev S64x1024 : Shape := ⟨2, ![64, 1024]⟩
abbrev S18432x1024 : Shape := ⟨2, ![18432, 1024]⟩

abbrev nBuf : Space → Nat
  | .hbm => 20
  | .vmem => 0
  | .smem => 0
  | _ => 0

abbrev bufTy : (tb : Table) → Fin (tcTables nBuf tb) → BufTy
  | .hbm, ⟨0, _⟩ => ⟨S18432x64, .f32⟩
  | .hbm, ⟨1, _⟩ => ⟨S1024x64, .f32⟩
  | .hbm, ⟨2, _⟩ => ⟨S18432x64, .f32⟩
  | .hbm, ⟨3, _⟩ => ⟨S_, .f32⟩
  | .hbm, ⟨4, _⟩ => ⟨S18432, .f32⟩
  | .hbm, ⟨5, _⟩ => ⟨S18432x1, .f32⟩
  | .hbm, ⟨6, _⟩ => ⟨S1024x64, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S64x1024, .f32⟩
  | .hbm, ⟨11, _⟩ => ⟨S18432x1024, .f32⟩
  | .hbm, ⟨12, _⟩ => ⟨S_, .f32⟩
  | .hbm, ⟨13, _⟩ => ⟨S18432x1024, .f32⟩
  | .hbm, ⟨14, _⟩ => ⟨S18432x1024, .f32⟩
  | .hbm, ⟨15, _⟩ => ⟨S18432x1024, .f32⟩
  | .hbm, ⟨16, _⟩ => ⟨S18432x1024, .f32⟩
  | .hbm, ⟨17, _⟩ => ⟨S18432x1024, .f32⟩
  | .hbm, ⟨18, _⟩ => ⟨S18432x1024, .f32⟩
  | .hbm, ⟨19, _⟩ => ⟨S18432x1024, .f32⟩
  | _, _ => ⟨S18432x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]

class Facts₀ : Prop where
  reducesTo_S18432x64_S18432_d1 : S18432x64.ReducesTo [1] S18432
  h_S_ : 0 < S_.numel
  bcast_S18432_S18432x1_0 : S18432.BroadcastsInDim S18432x1 (![0] : Fin 1 → Fin S18432x1.rank)
  reducesTo_S1024x64_S1024_d1 : S1024x64.ReducesTo [1] S1024
  bcast_S1024_S1x1024_1 : S1024.BroadcastsInDim S1x1024 (![1] : Fin 1 → Fin S1x1024.rank)
  transposes_S1024x64_S64x1024_1_0 : S1024x64.Transposes [1, 0] S64x1024
  bcast_S_S18432x1024 : S_.BroadcastsInDim S18432x1024 (![] : Fin 0 → Fin S18432x1024.rank)
  bcast_S18432x1_S18432x1024_0_1 : S18432x1.BroadcastsInDim S18432x1024 (![0, 1] : Fin 2 → Fin S18432x1024.rank)
  bcast_S1x1024_S18432x1024_0_1 : S1x1024.BroadcastsInDim S18432x1024 (![0, 1] : Fin 2 → Fin S18432x1024.rank)
  dot_S18432x64_S64x1024_S18432x1024_1_0_0_1_n_n_wf : DotDims.WF S18432x64 S64x1024 S18432x1024 [1] [0] [0] [1] [] []

variable [Facts₀]

def dot_S18432x64_S64x1024_S18432x1024_1_0_0_1_n_n : DotDims S18432x64 S64x1024 S18432x1024 where
  lhsContracting := [1]
  rhsContracting := [0]
  lhsNonContracting := [0]
  rhsNonContracting := [1]
  lhsBatch := []
  rhsBatch := []
  wf := dot_S18432x64_S64x1024_S18432x1024_1_0_0_1_n_n_wf

class Facts : Prop extends Facts₀ where

variable [Facts]
-- ==== Proof.Spec.lean ====
/-
  The logits of a vector quantizer as one function of the keys and the codebook, on the extended reals.

  For a key row p and a code row q (both of 64 channels) write  cross p q = Σ_c keys[p,c] · code[q,c],
  keySq p = Σ_c keys[p,c]²  and  codeSq q = Σ_c code[q,c]².  The logit of (p, q) is minus the squared distance between
  the two rows. It is written here in two arrangements:

    logits   t keys code (p, q) = (t · cross p q − keySq p) − codeSq q
    negDist z t keys code (p, q) = −(((z + keySq p) − t · cross p q) + (z + codeSq q))

  with t the literal 2.0 and z the literal 0.0 (the initial value of a sum). Over the reals the two are one function
  (expand the negation). On the extended reals the negation of a sum is the sum of the negations only away from
  opposite infinities, so the equation is proved for arrays all of whose entries are real numbers: every sum is then the
  coercion of a real sum, and the identity is the real one.
-/
import Idealize.ShloMosaic.PureOps.Ideal.Laws
import Idealize.ShloMosaic.Lib.ValueIdx

noncomputable section

open scoped BigOperators

namespace Cert.VQ

open Idealize.ShloMosaic Idealize.ShloMosaic.ValueIdx

abbrev SKeys : Shape := ⟨2, ![18432, 64]⟩
abbrev SCode : Shape := ⟨2, ![1024, 64]⟩
abbrev SLogits : Shape := ⟨2, ![18432, 1024]⟩

/-- Row p of the keys against row q of the codebook. -/
def cross (keys : SKeys.Idx → EReal) (code : SCode.Idx → EReal) (p : Fin 18432) (q : Fin 1024) : EReal :=
  ∑ c : Fin 64, keys (ix2 p c) * code (ix2 q c)

/-- The squared norm of key row p. -/
def keySq (keys : SKeys.Idx → EReal) (p : Fin 18432) : EReal :=
  ∑ c : Fin 64, keys (ix2 p c) * keys (ix2 p c)

/-- The squared norm of code row q. -/
def codeSq (code : SCode.Idx → EReal) (q : Fin 1024) : EReal :=
  ∑ c : Fin 64, code (ix2 q c) * code (ix2 q c)

/-- The logits with the cross term first: (t · cross − keySq) − codeSq. -/
def logits (t : EReal) (keys : SKeys.Idx → EReal) (code : SCode.Idx → EReal) : SLogits.Idx → EReal := fun i =>
  (t * cross keys code (i 0) (i 1) - keySq keys (i 0)) - codeSq code (i 1)

/-- The logits as the negated squared distance: −(((z + keySq) − t · cross) + (z + codeSq)). -/
def negDist (z t : EReal) (keys : SKeys.Idx → EReal) (code : SCode.Idx → EReal) : SLogits.Idx → EReal := fun i =>
  -(((z + keySq keys (i 0)) - t * cross keys code (i 0) (i 1)) + (z + codeSq code (i 1)))

/-- The literal 2.0 denotes the real number 2. -/
theorem two_eq : Ideal.ofBits .f32 0x40000000#32 = ((2 : ℝ) : EReal) := by
  simp [Ideal.ofBits, Ideal.ieee, -EReal.coe_mul]; norm_num

/-- The coercion of a finite real sum is the sum of the coercions. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A sum of products of real entries is a real number. -/
theorem sum_mul_real {ι : Type} [Fintype ι] (f g : ι → ℝ) :
    (∑ c : ι, (f c : EReal) * (g c : EReal)) = ((∑ c : ι, f c * g c : ℝ) : EReal) := by
  rw [coe_sum]
  exact Finset.sum_congr rfl fun c _ => (EReal.coe_mul _ _).symm

/-- The two arrangements agree on real numbers: expanding the negation. -/
theorem law (t s a b : ℝ) :
    -((((0 : EReal) + (a : EReal)) - (t : EReal) * (s : EReal)) + ((0 : EReal) + (b : EReal)))
      = ((t : EReal) * (s : EReal) - (a : EReal)) - (b : EReal) := by
  rw [zero_add, zero_add]
  have h : -((a - t * s) + b) = (t * s - a) - b := by ring
  exact_mod_cast h

/-- For keys and a codebook whose entries are all real numbers, the negated squared distance (with z = 0.0, t = 2.0)
    is the cross-term-first arrangement (with t = 2.0). -/
theorem negDist_eq_logits (keys : SKeys.Idx → EReal) (code : SCode.Idx → EReal)
    (hk : ∀ i, ∃ r : ℝ, keys i = (r : EReal)) (hc : ∀ i, ∃ r : ℝ, code i = (r : EReal)) :
    negDist (Ideal.ofBits .f32 0x00000000#32) (Ideal.ofBits .f32 0x40000000#32) keys code
      = logits (Ideal.ofBits .f32 0x40000000#32) keys code := by
  choose kr hkr using hk
  choose cr hcr using hc
  obtain rfl : keys = fun i => (kr i : EReal) := funext hkr
  obtain rfl : code = fun i => (cr i : EReal) := funext hcr
  funext i
  unfold negDist logits cross keySq codeSq
  rw [sum_mul_real (fun c => kr (ix2 (i 0) c)) (fun c => cr (ix2 (i 1) c)),
    sum_mul_real (fun c => kr (ix2 (i 0) c)) (fun c => kr (ix2 (i 0) c)),
    sum_mul_real (fun c => cr (ix2 (i 1) c)) (fun c => cr (ix2 (i 1) c)),
    two_eq, Ideal.ofBits_zero_f32]
  exact law 2 _ _ _

end Cert.VQ

end
-- ==== Proof.Finite.lean ====
/-
  Finite inputs are arrays of real numbers.

  The precondition is the conjunction of two tests, one per array: every entry's absolute value is strictly below +inf.
  On the extended reals the absolute value of x is max x (−x), which is +inf at both infinities; so an entry that passes
  the test is neither infinity, that is, it is (the coercion of) a real number.
-/
import proofs.«106355_g22522808500718_cont_8to1_552_3_alg».proof.Pre_finite_inputs
import Idealize.ShloMosaic.Lib.ReduceAll
import Idealize.ShloMosaic.Lib.ValueIdx
import Idealize.ShloMosaic.Lib.Affine
import Idealize.ShloMosaic.PureOps.Ideal.Laws

noncomputable section

namespace Cert.Pre_finite_inputs.Finite

open Cert.Pre_finite_inputs Cert.Pre_finite_inputs.Facts Idealize.ShloMosaic Idealize.ShloMosaic.ValueIdx

/-- The scalar shape has one index. -/
instance : Subsingleton S_.Idx := ⟨fun a b => funext fun d => d.elim0⟩

/-- The bound of the test denotes +inf. -/
theorem inf_eq : Ideal.ofBits .f32 0x7F800000#32 = (⊤ : EReal) := by
  simp [Ideal.ofBits, Ideal.ieee]

/-- An extended real whose absolute value is strictly below +inf is a real number. -/
theorem real_of_abs_lt_inf (x : EReal)
    (h : Ideal.cmp .olt (max x (-x)) (Ideal.ofBits .f32 0x7F800000#32) = 1#1) : ∃ r : ℝ, x = (r : EReal) := by
  rw [inf_eq] at h
  have hlt : max x (-x) < ⊤ := by
    by_contra hn
    have h0 : Ideal.cmp .olt (max x (-x)) ⊤ = 0#1 := by
      show BitVec.ofBool (decide (max x (-x) < ⊤)) = 0#1
      rw [decide_eq_false hn]
      rfl
    rw [h0] at h
    exact absurd h (by decide)
  induction x using EReal.rec with
  | bot => exact absurd hlt (by simp)
  | coe r => exact ⟨r, rfl⟩
  | top => exact absurd hlt (by simp)

variable [Facts]

/-- Under the precondition every entry of the keys and of the codebook is a real number. -/
theorem entries_real (a0 : FVec Ideal S18432x64 .f32) (a1 : FVec Ideal S1024x64 .f32)
    (h : fn (F := Ideal) a0 a1 = fun _ => 1#1) :
    (∀ i, ∃ r : ℝ, a0 i = (r : EReal)) ∧ (∀ i, ∃ r : ℝ, a1 i = (r : EReal)) := by
  have h0 := congrFun h ix0
  dsimp only [fn] at h0
  obtain ⟨e0, e1⟩ := IntOp.andi_eq_one.mp h0
  refine ⟨fun i => ?_, fun i => ?_⟩
  · exact real_of_abs_lt_inf (a0 i) (Host.reduce_andi_all _ _ reducesTo_S18432x64_S_d0_1 h_S_ ix0 e0 i)
  · exact real_of_abs_lt_inf (a1 i) (Host.reduce_andi_all _ _ reducesTo_S1024x64_S_d0_1 h_S_ ix0 e1 i)

end Cert.Pre_finite_inputs.Finite

end
-- ==== Proof.RefValue.lean ====
/-
  The reference's result is the negated squared distance of the specification.

  The reference computes, for key row p and code row q,
      −(((0 + Σ_c keys[p,c]²) − 2 · Σ_c keys[p,c] · code[q,c]) + (0 + Σ_c code[q,c]²)):
  the squared norms by a sum over the channel axis from the initial value 0.0, laid out as a column and as a row and
  repeated over the whole result; the cross term by a product of the keys with the transposed codebook. Reading each
  stage at an index and following the index maps down to the arguments gives the three sums over the 64 channels.
-/
import proofs.«106355_g22522808500718_cont_8to1_552_3_alg».proof.Proof.Gen.ReferenceIdeal.Read
import proofs.«106355_g22522808500718_cont_8to1_552_3_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The keys' squared norm at result entry (p, q) sums key row p. -/
theorem keyRow (p : Fin 18432) (q : Fin 1024) (k : Fin 64) :
    idx_main_v1 (idx_main_v2 (idx_main_v10 (ix2 p q))) k = ix2 p k :=
  funext fun a => Fin.ext (by match a with | ⟨0, _⟩ => rfl | ⟨1, _⟩ => rfl)

/-- The codebook's squared norm at result entry (p, q) sums code row q. -/
theorem codeRow (p : Fin 18432) (q : Fin 1024) (k : Fin 64) :
    idx_main_v4 (idx_main_v5 (idx_main_v12 (ix2 p q))) k = ix2 q k :=
  funext fun a => Fin.ext (by match a with | ⟨0, _⟩ => rfl | ⟨1, _⟩ => rfl)

/-- The product's left factor at (p, q) runs along key row p. -/
theorem crossKey (p : Fin 18432) (q : Fin 1024) (k : Fin 64) : lidx_main_v7 (ix2 p q) k = ix2 p k :=
  funext fun a => Fin.ext (by match a with | ⟨0, _⟩ => rfl | ⟨1, _⟩ => rfl)

/-- The product's right factor at (p, q), through the transpose, runs along code row q. -/
theorem crossCode (p : Fin 18432) (q : Fin 1024) (k : Fin 64) : idx_main_v6 (ridx_main_v7 (ix2 p q) k) = ix2 q k :=
  funext fun a => Fin.ext (by match a with | ⟨0, _⟩ => rfl | ⟨1, _⟩ => rfl)

/-- The reference's result array is the negated squared distance, with 0.0 the sums' initial value and 2.0 the factor. -/
theorem result_eq (x0 : (⟨S18432x64, .f32⟩ : BufTy).Contents (Elt Ideal)) (x1 : (⟨S1024x64, .f32⟩ : BufTy).Contents (Elt Ideal)) :
    val_main_v14 (F := Ideal) x0 x1
      = Cert.VQ.negDist (Ideal.ofBits .f32 0x00000000#32) (Ideal.ofBits .f32 0x40000000#32) x0 x1 := by
  funext i
  obtain ⟨p, q, rfl⟩ : ∃ (p : Fin 18432) (q : Fin 1024), i = ix2 p q := ⟨i 0, i 1, eq_ix2 i⟩
  simp only [val_main_v14_apply, val_main_v13_apply, val_main_v11_apply, val_main_v10_apply, val_main_v2_apply,
    val_main_v1_apply, val_main_v0_apply, val_main_v9_apply, val_main_v8_apply, val_main_cst_1_apply, val_main_v7_apply,
    val_main_v6_apply, val_main_v12_apply, val_main_v5_apply, val_main_v4_apply, val_main_v3_apply, val_main_cst_apply,
    val_main_cst_0_apply, keyRow, codeRow, crossKey, crossCode]
  simp only [Cert.VQ.negDist, Cert.VQ.cross, Cert.VQ.keySq, Cert.VQ.codeSq, Ideal.hostNegf_def, Ideal.negf_def,
    Ideal.addf_def, Ideal.subf_def, Ideal.mulf_def, Ideal.ofBits_def]

end Cert.ReferenceIdeal.RefValue

end
-- ==== Proof.LibRows.lean ====
/-
  Arrays of n rows and c columns read row by row.

  A reduction along the second axis, read at row p, ranges over the columns k of that row: the source index over the
  reduced index (p) with the coordinate k inserted is (p, k). So a kernel's multi_reduction and the host's reduce
  over axis 1 are, at row p, the sum (the largest, the smallest) of the row's entries x (p, k), k : Fin c.
  A unit-stride slice that drops the first or the last column reads the row shifted or unshifted, and a concatenation
  of fifteen columns of shape [n, 1] along axis 1 reads, at (p, j), column j at (p, 0).
-/
import Idealize.ShloMosaic.Lib.ValueIdx
import Idealize.ShloMosaic.Lib.Pipeline.Value
import Idealize.ShloMosaic.PureOps.Ideal.Laws

noncomputable section

open scoped BigOperators

namespace Idealize.ShloMosaic.Rows

open Idealize.ShloMosaic Idealize.ShloMosaic.ValueIdx

variable {n c : ℕ} {φ : FTy}

/-- Over row p, the source index with column k inserted is (p, k). -/
theorem lift_row (h : (⟨2, ![n, c]⟩ : Shape).Reduces [1] ⟨1, ![n]⟩) (p : Fin n) (k : Fin c) :
    h.lift (ix1 p) k = ix2 p k := by
  funext a
  apply Fin.ext
  show h.liftVal (ix1 p) k.val a = _
  match a with
  | ⟨0, _⟩ => simp [Shape.Reduces.liftVal]
  | ⟨1, _⟩ => simp [Shape.Reduces.liftVal]

/-- A kernel's sum along the columns, at row p. -/
theorem mredAdd_row (src : FVec Ideal ⟨2, ![n, c]⟩ φ) (acc : BitVec φ.bits)
    (h : (⟨2, ![n, c]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin c, src (ix2 p k) := by
  rw [Ideal.multiReduction_add_single]
  exact Finset.sum_congr rfl fun k _ => congrArg src (lift_row h p k)

/-- A kernel's maximum along the columns, at row p. -/
theorem mredMax_row (src : FVec Ideal ⟨2, ![n, c]⟩ φ) (acc : BitVec φ.bits)
    (h : (⟨2, ![n, c]⟩ : Shape).Reduces [1] ⟨1, ![n]⟩) (hφ : FKind.Formats φ) (hacc : acc = FKind.maximumf.neutral φ hφ)
    (p : Fin n) :
    multiReduction .maximumf [1] ⟨1, ![n]⟩ src acc h hφ hacc (ix1 p)
      = (Finset.univ : Finset (Fin c)).fold max (Ideal.ofBits φ acc) (fun k => src (ix2 p k)) := by
  rw [Ideal.multiReduction_maximumf_single]
  have e : (src ∘ h.lift (ix1 p)) = fun k : Fin c => src (ix2 p k) := funext fun k => congrArg src (lift_row h p k)
  rw [e]
  rfl

/-- A kernel's minimum along the columns, at row p. -/
theorem mredMin_row (src : FVec Ideal ⟨2, ![n, c]⟩ φ) (acc : BitVec φ.bits)
    (h : (⟨2, ![n, c]⟩ : Shape).Reduces [1] ⟨1, ![n]⟩) (hφ : FKind.Formats φ) (hacc : acc = FKind.minimumf.neutral φ hφ)
    (p : Fin n) :
    multiReduction .minimumf [1] ⟨1, ![n]⟩ src acc h hφ hacc (ix1 p)
      = (Finset.univ : Finset (Fin c)).fold min (Ideal.ofBits φ acc) (fun k => src (ix2 p k)) := by
  rw [multiReduction_minimumf_eq_fold, h.fold_filter_drop_single]
  have e : (src ∘ h.lift (ix1 p)) = fun k : Fin c => src (ix2 p k) := funext fun k => congrArg src (lift_row h p k)
  rw [e]
  rfl

/-- The host's sum along the columns, at row p: the initial value plus the row's sum. -/
theorem hredAdd_row (x : FVec Ideal ⟨2, ![n, c]⟩ φ) {u : Shape} (v : u.Idx → Ideal φ)
    (h' : (⟨2, ![n, c]⟩ : Shape).ReducesTo [1] ⟨1, ![n]⟩) (h : (⟨2, ![n, c]⟩ : Shape).Reduces [1] ⟨1, ![n]⟩)
    (hu : 0 < u.numel) (p : Fin n) :
    Host.reduceAdd x v h' hu (ix1 p) = v (Shape.Idx.first hu) + ∑ k : Fin c, x (ix2 p k) := by
  show Ideal.hostReduceAdd h' x (v (Shape.Idx.first hu)) (ix1 p) = _
  rw [Ideal.hostReduceAdd_single h' h]
  exact congrArg (v (Shape.Idx.first hu) + ·) (Finset.sum_congr rfl fun k _ => congrArg x (lift_row h p k))

/-- The host's maximum along the columns, at row p. -/
theorem hredMax_row (x : FVec Ideal ⟨2, ![n, c]⟩ φ) {u : Shape} (v : u.Idx → Ideal φ)
    (h' : (⟨2, ![n, c]⟩ : Shape).ReducesTo [1] ⟨1, ![n]⟩) (h : (⟨2, ![n, c]⟩ : Shape).Reduces [1] ⟨1, ![n]⟩)
    (hu : 0 < u.numel) (p : Fin n) :
    Host.reduce FloatOps.maximumf x v h' hu (ix1 p)
      = (Finset.univ : Finset (Fin c)).fold max (v (Shape.Idx.first hu)) (fun k => x (ix2 p k)) := by
  rw [Host.reduce_eq_fold_single FloatOps.maximumf x v h' h hu]
  have e : (x ∘ h.lift (ix1 p)) = fun k : Fin c => x (ix2 p k) := funext fun k => congrArg x (lift_row h p k)
  rw [e]
  rfl

/-- The host's minimum along the columns, at row p. -/
theorem hredMin_row (x : FVec Ideal ⟨2, ![n, c]⟩ φ) {u : Shape} (v : u.Idx → Ideal φ)
    (h' : (⟨2, ![n, c]⟩ : Shape).ReducesTo [1] ⟨1, ![n]⟩) (h : (⟨2, ![n, c]⟩ : Shape).Reduces [1] ⟨1, ![n]⟩)
    (hu : 0 < u.numel) (p : Fin n) :
    Host.reduce FloatOps.minimumf x v h' hu (ix1 p)
      = (Finset.univ : Finset (Fin c)).fold min (v (Shape.Idx.first hu)) (fun k => x (ix2 p k)) := by
  rw [Host.reduce_eq_fold_single FloatOps.minimumf x v h' h hu]
  have e : (x ∘ h.lift (ix1 p)) = fun k : Fin c => x (ix2 p k) := funext fun k => congrArg x (lift_row h p k)
  rw [e]
  rfl

variable {α : Type}

/-- The slice that drops the first column reads the row one to the right. -/
theorem slice_succ (x : (⟨2, ![n, c + 1]⟩ : Shape).Idx → α)
    (h : (⟨2, ![n, c + 1]⟩ : Shape).Slices ![0, 1] ⟨2, ![n, c]⟩) (p : Fin n) (k : Fin c) :
    extractStridedSlice ⟨2, ![n, c]⟩ ![0, 1] x h (ix2 p k) = x (ix2 p k.succ) :=
  extractStridedSlice_apply _ x h _ _ fun a => by
    match a with
    | ⟨0, _⟩ => show p.val = 0 + p.val; omega
    | ⟨1, _⟩ => show k.val + 1 = 1 + k.val; omega

/-- The slice that drops the last column reads the row in place. -/
theorem slice_castSucc (x : (⟨2, ![n, c + 1]⟩ : Shape).Idx → α)
    (h : (⟨2, ![n, c + 1]⟩ : Shape).Slices ![0, 0] ⟨2, ![n, c]⟩) (p : Fin n) (k : Fin c) :
    extractStridedSlice ⟨2, ![n, c]⟩ ![0, 0] x h (ix2 p k) = x (ix2 p k.castSucc) :=
  extractStridedSlice_apply _ x h _ _ fun a => by
    match a with
    | ⟨0, _⟩ => show p.val = 0 + p.val; omega
    | ⟨1, _⟩ => show k.val = 0 + k.val; omega

/-- Fifteen columns [n, 1] laid side by side: entry (p, j) is column j at (p, 0). -/
theorem concat15_apply (f : Fin 15 → ((⟨2, ![n, 1]⟩ : Shape).Idx → α))
    (h : Shape.Concatenates ((List.ofFn fun i : Fin 15 => (⟨⟨2, ![n, 1]⟩, f i⟩ : (s : Shape) × (s.Idx → α))).map (·.1))
      ⟨2, ![n, 15]⟩ 1)
    (p : Fin n) (j : Fin 15) :
    concatenate ⟨2, ![n, 15]⟩ 1 (List.ofFn fun i : Fin 15 => (⟨⟨2, ![n, 1]⟩, f i⟩ : (s : Shape) × (s.Idx → α))) h (ix2 p j)
      = f j (ix2 p (0 : Fin 1)) :=
  concatenate_ofFn_unit_apply (t := ⟨2, ![n, 15]⟩) (s₁ := ⟨2, ![n, 1]⟩) 1 f h rfl rfl (ix2 p j) j rfl (ix2 p (0 : Fin 1))
    (fun b hb => by
      match b with
      | ⟨0, _⟩ => rfl
      | ⟨1, _⟩ => exact absurd rfl hb)

end Idealize.ShloMosaic.Rows

end
-- ==== Proof.LibColumn.lean ====
/-
  A vector of length `a` laid out as a column `[a, 1]`, read at an index.

  Two host operations produce the same column from a vector `x`: a reshape `[a] → [a, 1]` (row-major position
  `i * 1 + 0 = i`) and a `broadcast_in_dim` along axis `0` into `[a, 1]` (the new axis has extent one, so nothing is
  repeated). Both read `x i` at `(i, u)`, whatever the unit coordinate `u`; hence the two columns are equal as arrays.
  A column broadcast along its unit axis to `[a, b]` (the kernel-side `vector.broadcast`, the host's
  `broadcast_in_dim` along both axes) reads the column at `(i, 0)`.
-/
import Idealize.ShloMosaic.Lib.ValueIdx
import Idealize.ShloMosaic.Lib.Pipeline.Value

namespace Idealize.ShloMosaic.Column

open Idealize.ShloMosaic Idealize.ShloMosaic.ValueIdx

variable {α : Type}

/-- The reshape `[a] → [a, 1]` at `(i, u)` is the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The `broadcast_in_dim` of a vector along axis `0` into `[a, 1]`, at `(i, u)`, is the vector at `i`
    (for `a ≠ 1`; the extent-one case reads index `0`, which is again `i`). -/
theorem broadcastInDim_a_a1_apply {a : ℕ} (x : (⟨1, ![a]⟩ : Shape).Idx → α)
    (dims : Fin 1 → Fin 2) (hd : dims 0 = 0)
    (h : (⟨1, ![a]⟩ : Shape).BroadcastsInDim ⟨2, ![a, 1]⟩ dims)
    (i : Fin a) (u : Fin 1) : broadcastInDim ⟨2, ![a, 1]⟩ dims h x (ix2 i u) = x (ix1 i) := by
  refine broadcastInDim_apply dims h x (ix2 i u) (ix1 i) ?_
  intro d
  match d with
  | ⟨0, _⟩ =>
    show i.val = if a = 1 then 0 else ((ix2 i u : (⟨2, ![a, 1]⟩ : Shape).Idx) (dims 0)).val
    rw [hd]
    by_cases h1 : a = 1
    · rw [if_pos h1]; have := i.isLt; omega
    · rw [if_neg h1]

/-- So the two columns are one array. -/
theorem shapeCast_eq_broadcastInDim {a : ℕ} (x : (⟨1, ![a]⟩ : Shape).Idx → α)
    (hs : (⟨1, ![a]⟩ : Shape).ShapeCasts ⟨2, ![a, 1]⟩)
    (dims : Fin 1 → Fin 2) (hd : dims 0 = 0)
    (hb : (⟨1, ![a]⟩ : Shape).BroadcastsInDim ⟨2, ![a, 1]⟩ dims) :
    shapeCast ⟨2, ![a, 1]⟩ x hs = broadcastInDim ⟨2, ![a, 1]⟩ dims hb x := by
  funext j
  obtain ⟨p, q, rfl⟩ : ∃ (p : Fin a) (q : Fin 1), j = ix2 p q := ⟨j 0, j 1, eq_ix2 j⟩
  rw [shapeCast_a_a1_apply, broadcastInDim_a_a1_apply x dims hd]

/-- A column `[a, 1]` broadcast to `[a, b]` (a kernel's `vector.broadcast`) reads, at `(i, j)`, the column at `(i, 0)`
    (for `a ≠ 1`). -/
theorem broadcastTo_a1_ab_apply {a b : ℕ} (ha : a ≠ 1) (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) := by
  refine broadcastTo_apply x h (ix2 i j) (ix2 i (0 : Fin 1)) ?_
  intro d
  match d with
  | ⟨0, _⟩ => show i.val = if a = 1 then 0 else i.val; rw [if_neg ha]
  | ⟨1, _⟩ => show 0 = if (1 : ℕ) = 1 then 0 else j.val; rw [if_pos rfl]

/-- The host's `broadcast_in_dim` of a column `[a, 1]` along both axes into `[a, b]` reads the same (for `a ≠ 1`). -/
theorem broadcastInDim_a1_ab_apply {a b : ℕ} (ha : a ≠ 1) (x : (⟨2, ![a, 1]⟩ : Shape).Idx → α)
    (dims : Fin 2 → Fin 2) (hd0 : dims 0 = 0) (hd1 : dims 1 = 1)
    (h : (⟨2, ![a, 1]⟩ : Shape).BroadcastsInDim ⟨2, ![a, b]⟩ dims) (i : Fin a) (j : Fin b) :
    broadcastInDim ⟨2, ![a, b]⟩ dims h x (ix2 i j) = x (ix2 i (0 : Fin 1)) := by
  refine broadcastInDim_apply dims h x (ix2 i j) (ix2 i (0 : Fin 1)) ?_
  intro d
  match d with
  | ⟨0, _⟩ =>
    show i.val = if a = 1 then 0 else ((ix2 i j : (⟨2, ![a, b]⟩ : Shape).Idx) (dims 0)).val
    rw [hd0, if_neg ha]
  | ⟨1, _⟩ =>
    show 0 = if (1 : ℕ) = 1 then 0 else ((ix2 i j : (⟨2, ![a, b]⟩ : Shape).Idx) (dims 1)).val
    rw [if_pos rfl]

end Idealize.ShloMosaic.Column
-- ==== Proof.LibRowBias.lean ====
/-
  A bias row read at an index.

  A vector [n] laid out as a one-row matrix [1, n] holds at (0, j) the vector's entry j; and a one-row matrix [1, n]
  broadcast down M rows holds at (p, j) its entry (0, j). The host's form of the two together — a vector [n] broadcast to
  [1, n] and then to [M, n] — holds at (p, j) the vector's entry j. A scalar broadcast to any shape holds the scalar
  everywhere. Generic in the extents and the element type.
-/
import Idealize.ShloMosaic.Lib.Pipeline.Value
import Idealize.ShloMosaic.Lib.ValueIdx

noncomputable section

namespace Cert.RowBias

open Idealize.ShloMosaic Idealize.ShloMosaic.ValueIdx

variable {α : Type} {M n : Nat}

/-- A one-row matrix broadcast down the rows: every row is the one row. -/
theorem rows_apply (v : (⟨2, ![1, n]⟩ : Shape).Idx → α) (hb : (⟨2, ![1, n]⟩ : Shape).Broadcasts ⟨2, ![M, n]⟩) (p : Fin M) (j : Fin n) :
    broadcastTo ⟨2, ![M, n]⟩ v hb (ix2 p j) = v (ix2 (0 : Fin 1) j) :=
  broadcastTo_apply v hb (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega

/-- A vector reshaped to a one-row matrix: the row is the vector. -/
theorem ofVec_apply (b : (⟨1, ![n]⟩ : Shape).Idx → α) (h : (⟨1, ![n]⟩ : Shape).ShapeCasts ⟨2, ![1, n]⟩) (j : Fin n) :
    shapeCast ⟨2, ![1, n]⟩ b h (ix2 (0 : Fin 1) j) = b (ix1 j) :=
  shapeCast_apply b h (ix2 (0 : Fin 1) j) (ix1 j) (by
    rw [Shape.rowMajor_val_one, Shape.rowMajor_val_two]
    show j.val = 0 * n + j.val
    omega)

/-- The host's bias: a vector broadcast to one row and then down the rows. -/
theorem hostRows_apply (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![M, n]⟩ ![0, 1]) (p : Fin M) (j : Fin n) :
    broadcastInDim ⟨2, ![M, n]⟩ ![0, 1] h2 (broadcastInDim ⟨2, ![1, n]⟩ ![1] h1 b) (ix2 p j) = b (ix1 j) :=
  (broadcastInDim_apply ![0, 1] h2 _ (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega).trans
  (broadcastInDim_apply ![1] h1 b (ix2 (0 : Fin 1) j) (ix1 j) fun a => match a with
    | ⟨0, _⟩ => by
        show j.val = if n = 1 then 0 else j.val
        have := j.isLt
        split <;> omega)

/-- A scalar broadcast to a shape holds the scalar at every index. -/
theorem splat_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

end Cert.RowBias

end
-- ==== Proof.LibDotRows.lean ====
/-
  A matrix product against a stored [N, K] matrix, read at an index, on the extended reals.

  The dimension numbers contract the left operand's axis 1 with the right operand's axis 1 (no batch axis): an M×K
  matrix L against an N×K matrix W, the result M×N. Entry (p, q) of the product into a zero accumulator, and of the
  host's `dot_general` with the same numbers, is the sum over k of L[p,k] · W[q,k]: row p of L against row q of W.
  Generic in the three extents.
-/
import Idealize.ShloMosaic.PureOps.Ideal.Laws
import Idealize.ShloMosaic.Lib.ValueIdx

noncomputable section

open scoped BigOperators

namespace Cert.DotRows

open Idealize.ShloMosaic Idealize.ShloMosaic.ValueIdx

variable {M K N : Nat}

/-- The left operand's row coordinate is the result's row coordinate. -/
theorem lhs0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The left operand's column coordinate is the contraction's one coordinate. -/
theorem lhs1 (i : (⟨2, ![M, N]⟩ : Shape).Idx) (q : (DotDims.transposedRhs M K N).contr.Idx) :
    ((DotDims.transposedRhs M K N).lhsIdx i q 1).val
      = (q ⟨0, Nat.lt_of_lt_of_eq Nat.one_pos (Eq.symm (rfl : (DotDims.transposedRhs M K N).contr.rank = 1))⟩).val :=
  (DotDims.transposedRhs M K N).lhsIdx_val_of_single rfl i q

/-- The right operand's row coordinate is the result's column coordinate. -/
theorem rhs0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The right operand's column coordinate is the contraction's one coordinate. -/
theorem rhs1 (i : (⟨2, ![M, N]⟩ : Shape).Idx) (q : (DotDims.transposedRhs M K N).contr.Idx) :
    ((DotDims.transposedRhs M K N).rhsIdx i q 1).val
      = (q ⟨0, Nat.lt_of_lt_of_eq Nat.one_pos (Eq.symm (rfl : (DotDims.transposedRhs M K N).contr.rank = 1))⟩).val :=
  (DotDims.transposedRhs M K N).rhsIdx_val_of_single rfl i q

/-- The contraction's sum re-indexed by its one coordinate: row p of L against row q of W. -/
theorem sum_contr {φ₁ φ₂ : FTy} (L : FVec Ideal ⟨2, ![M, K]⟩ φ₁) (W : FVec Ideal ⟨2, ![N, K]⟩ φ₂) (p : Fin M) (q : Fin N) :
    (∑ k : (DotDims.transposedRhs M K N).contr.Idx,
        L ((DotDims.transposedRhs M K N).lhsIdx (ix2 p q) k) * W ((DotDims.transposedRhs M K N).rhsIdx (ix2 p q) k))
      = ∑ k : Fin K, L (ix2 p k) * W (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs0 _ _
      | ⟨1, _⟩ => exact (lhs1 _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs0 _ _
      | ⟨1, _⟩ => exact (rhs1 _ _).trans hk)
  rw [el, er]

/-- The vector unit's product into the zero accumulator, at (p, q). -/
theorem matmul_zero_apply {φ₁ φ₂ : FTy} (prec : Option ContractPrecision) (L : FVec Ideal ⟨2, ![M, K]⟩ φ₁)
    (W : FVec Ideal ⟨2, ![N, K]⟩ φ₂) (p : Fin M) (q : Fin N) :
    FloatOps.matmul (DotDims.transposedRhs M K N) prec L W (constant ⟨2, ![M, N]⟩ .f32 0x00000000#32) (ix2 p q)
      = ∑ k : Fin K, L (ix2 p k) * W (ix2 q k) := by
  rw [Ideal.matmul_constant_zero_apply]
  exact sum_contr L W p q

/-- The host's product with the same dimension numbers, at (p, q). -/
theorem dotGeneral_apply {φ₁ φ₂ : FTy} (prec : Option ContractPrecision) (sched : HostSchedule) (L : FVec Ideal ⟨2, ![M, K]⟩ φ₁)
    (W : FVec Ideal ⟨2, ![N, K]⟩ φ₂) (p : Fin M) (q : Fin N) :
    FloatOps.dotGeneral (DotDims.transposedRhs M K N) prec sched L W (ix2 p q) = ∑ k : Fin K, L (ix2 p k) * W (ix2 q k) := by
  rw [Ideal.dotGeneral_apply]
  exact sum_contr L W p q

end Cert.DotRows

end
-- ==== Proof.KernelValue.lean ====
/-
  What the kernel body computes from its two loaded blocks, read at one entry.

  The body loads a block of 1024 key rows and the whole codebook (1024 code rows), each of 64 channels, and stores a
  1024 × 1024 tile. Entry (p, q) of the tile is

      (2 · Σ_c keys[p,c] · code[q,c] − Σ_c keys[p,c]²) − Σ_c code[q,c]².

  The cross term is a matrix product contracting the last axis of both blocks into a zero accumulator; the narrowing of
  the two blocks to a shorter float format before the product is the identity on the extended reals. The key rows' squared
  norms are a sum along the channels laid out as a column and repeated along the tile's columns; the code rows' squared
  norms the same sum laid out as a row and repeated down the tile's rows.
-/
import proofs.«106355_g22522808500718_cont_8to1_552_3_alg».proof.Proof.Gen.KernelIdeal.Skeleton
import proofs.«106355_g22522808500718_cont_8to1_552_3_alg».proof.Proof.LibRows
import proofs.«106355_g22522808500718_cont_8to1_552_3_alg».proof.Proof.LibColumn
import proofs.«106355_g22522808500718_cont_8to1_552_3_alg».proof.Proof.LibRowBias
import proofs.«106355_g22522808500718_cont_8to1_552_3_alg».proof.Proof.LibDotRows
import Idealize.ShloMosaic.Lib.ValueIdx

noncomputable section

open scoped BigOperators

namespace Cert.KernelIdeal.BodyValue

open Cert.KernelIdeal Cert.KernelIdeal.Gen Idealize.ShloMosaic Idealize.ShloMosaic.ValueIdx

/-- The product's dimension numbers are those of an M×K matrix against a stored N×K matrix. -/
theorem dot_eq : dot_S1024x64_S1024x64_S1024x1024_1_1_0_0_n_n = DotDims.transposedRhs 1024 64 1024 := rfl

/-- The cross term at (p, q): key row p against code row q. -/
theorem cross_apply (v0 v1 : FVec Ideal S1024x64 .f32) (p q : Fin 1024) :
    matmul dot_S1024x64_S1024x64_S1024x1024_1_1_0_0_n_n none (truncf .bf16 v0 bitsLt_bf16_f32) (truncf .bf16 v1 bitsLt_bf16_f32)
        (constant S1024x1024 .f32 0x00000000#32) (ix2 p q)
      = ∑ c : Fin 64, v0 (ix2 p c) * v1 (ix2 q c) := by
  rw [dot_eq]
  exact Cert.DotRows.matmul_zero_apply none (truncf .bf16 v0 bitsLt_bf16_f32) (truncf .bf16 v1 bitsLt_bf16_f32) p q

/-- The rows' squared norms as a column repeated along the columns: at (p, q), the squared norm of row p. -/
theorem rowSq_apply (v : FVec Ideal S1024x64 .f32) (p q : Fin 1024) :
    broadcastTo S1024x1024
        (shapeCast S1024x1 (multiReduction .add [1] S1024 (mulf v v) 0x00000000#32 reduces_S1024x64_S1024 (.inl rfl) rfl)
          shapeCasts_S1024_S1024x1)
        broadcasts_S1024x1_S1024x1024 (ix2 p q)
      = ∑ c : Fin 64, v (ix2 p c) * v (ix2 p c) := by
  rw [Column.broadcastTo_a1_ab_apply (by decide), Column.shapeCast_a_a1_apply]
  exact Rows.mredAdd_row (mulf v v) 0x00000000#32 reduces_S1024x64_S1024 (.inl rfl) rfl p

/-- The rows' squared norms as a row repeated down the rows: at (p, q), the squared norm of row q. -/
theorem colSq_apply (v : FVec Ideal S1024x64 .f32) (p q : Fin 1024) :
    broadcastTo S1024x1024
        (shapeCast S1x1024 (multiReduction .add [1] S1024 (mulf v v) 0x00000000#32 reduces_S1024x64_S1024 (.inl rfl) rfl)
          shapeCasts_S1024_S1x1024)
        broadcasts_S1x1024_S1024x1024 (ix2 p q)
      = ∑ c : Fin 64, v (ix2 q c) * v (ix2 q c) := by
  rw [Cert.RowBias.rows_apply, Cert.RowBias.ofVec_apply]
  exact Rows.mredAdd_row (mulf v v) 0x00000000#32 reduces_S1024x64_S1024 (.inl rfl) rfl q

/-- The stored tile at (p, q), from the two loaded blocks. -/
theorem pay_apply (v0 v1 : Vec Ideal S1024x64 .f32) (p q : Fin 1024) :
    k0_pay1 (F := Ideal) v0 v1 (ix2 p q)
      = (Ideal.ofBits .f32 0x40000000#32 * ∑ c : Fin 64, v0 (ix2 p c) * v1 (ix2 q c)
          - ∑ c : Fin 64, v0 (ix2 p c) * v0 (ix2 p c))
        - ∑ c : Fin 64, v1 (ix2 q c) * v1 (ix2 q c) := by
  unfold k0_pay1
  dsimp only
  rw [subf_apply, subf_apply, mulf_apply, broadcast_apply, cross_apply, rowSq_apply, colSq_apply]
  rfl

end Cert.KernelIdeal.BodyValue

end
-- ==== Proof.Blocks.lean ====
/-
  From the tiles to the whole logits array.

  The grid has 18 points. Point t stages key rows 1024·t … 1024·t + 1023 (all 64 channels) and the whole codebook, and
  writes back the tile of result rows 1024·t … 1024·t + 1023 (all 1024 columns). Entry (p, q) of that tile is the
  body's value from key row 1024·t + p and code row q, which is the logit of result entry (1024·t + p, q): the tile is
  the restriction of the whole logits array to its rows. Result row r lies in the tile of point r / 1024, so the 18 tiles
  cover the array, and after the run the result array is the logits of the keys and the codebook as launched.
-/
import proofs.«106355_g22522808500718_cont_8to1_552_3_alg».proof.Proof.Gen.KernelIdeal.Value
import proofs.«106355_g22522808500718_cont_8to1_552_3_alg».proof.Proof.KernelValue
import proofs.«106355_g22522808500718_cont_8to1_552_3_alg».proof.Proof.Spec

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The loads and the store of the body are at the origin of their buffers. -/
theorem origin : (![0, 0] : Fin 2 → Nat) = fun _ => 0 := funext fun a => by fin_cases a <;> rfl

/-- The logits of the keys and the codebook as the region finds them. -/
abbrev result (c : Dev nD) : S18432x1024.Idx → EReal :=
  Cert.VQ.logits (Ideal.ofBits .f32 0x40000000#32) (V m c main_arg0) (V m c main_arg1)

/-- The index maps over the grid: the keys' and the result's row block is the point's number, every other block index 0. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A tile entry is the logit of the result entry it lands on, when the two loaded blocks' rows are the key row and the
    code row of that entry. -/
theorem tile_entry (keys : S18432x64.Idx → EReal) (code : S1024x64.Idx → EReal) (x0 x1 : Vec Ideal S1024x64 .f32)
    (p q : Fin 1024) (i : S18432x1024.Idx)
    (h0 : ∀ c : Fin 64, x0 (ix2 p c) = keys (ix2 (i 0) c))
    (h1 : ∀ c : Fin 64, x1 (ix2 q c) = code (ix2 (i 1) c)) :
    k0_pay1 (F := Ideal) x0 x1 (ix2 p q) = Cert.VQ.logits (Ideal.ofBits .f32 0x40000000#32) keys code i := by
  rw [Cert.KernelIdeal.BodyValue.pay_apply]
  simp only [Cert.VQ.logits, Cert.VQ.cross, Cert.VQ.keySq, Cert.VQ.codeSq, h0, h1]

/-- What point t writes back is the tile of the logits array at its block. -/
theorem flushed_eq (c : Dev nD) (t : Fin cfg0.N) :
    (dats m 0 c).flushed 2 t = ((cfg0.win 2).blk t).view.read (Elt Ideal) (result m c) := by
  rw [Cert.KernelIdeal.Value.flushed2]
  unfold out0_2
  rw [View.canon_unit_zero origin]
  simp only [View.ld_unit_zero (S := S1024x64) origin]
  obtain ⟨e00, e01, e10, e11, e20, e21⟩ := block_indices t
  refine funext fun (j : S1024x1024.Idx) => ?_
  obtain ⟨p, q, rfl⟩ : ∃ (p : Fin 1024) (q : Fin 1024), j = ix2 p q := ⟨j 0, j 1, eq_ix2 j⟩
  show k0_pay1 (F := Ideal) (iblk m c 0 t) (iblk m c 1 t) (ix2 p q) = result m c (((cfg0.win 2).blk t).view.emb (ix2 p q))
  refine tile_entry (V m c main_arg0) (V m c main_arg1) (iblk m c 0 t) (iblk m c 1 t) p q _ (fun cc => ?_) (fun cc => ?_)
  · show V m c main_arg0 (((cfg0.win 0).blk t).view.emb (ix2 p cc))
        = V m c main_arg0 (ix2 ((((cfg0.win 2).blk t).view.emb (ix2 p q)) 0) cc)
    refine congrArg (V m c main_arg0) (funext fun a => Fin.ext ?_)
    match a with
    | ⟨0, _⟩ =>
      show win0_0.index t (0 : Fin 2) * 1024 + 1 * p.val = win0_2.index t (0 : Fin 2) * 1024 + 1 * p.val
      rw [e00, e20]
    | ⟨1, _⟩ =>
      show win0_0.index t (1 : Fin 2) * 64 + 1 * cc.val = cc.val
      rw [e01]; omega
  · show V m c main_arg1 (((cfg0.win 1).blk t).view.emb (ix2 q cc))
        = V m c main_arg1 (ix2 ((((cfg0.win 2).blk t).view.emb (ix2 p q)) 1) cc)
    refine congrArg (V m c main_arg1) (funext fun a => Fin.ext ?_)
    match a with
    | ⟨0, _⟩ =>
      show win0_1.index t (0 : Fin 2) * 1024 + 1 * q.val = win0_2.index t (1 : Fin 2) * 1024 + 1 * q.val
      rw [e10, e21]
    | ⟨1, _⟩ =>
      show win0_1.index t (1 : Fin 2) * 64 + 1 * cc.val = cc.val
      rw [e11]; omega

/-- A result index is in point t's tile iff each coordinate is in the tile's range on its axis. -/
theorem mem_tile (t : Fin cfg0.N) (i : S18432x1024.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- Every result index lies in the tile of the point numbered by its row divided by 1024. -/
theorem covered (i : S18432x1024.Idx) :
    ∃ t : Fin cfg0.N, (cfg0.win 2).flush t = true ∧ i ∈ ((cfg0.win 2).blk t).view.set := by
  have hi0 : (i 0).val < 18432 := (i 0).isLt
  have hi1 : (i 1).val < 1024 := (i 1).isLt
  obtain ⟨t, ht⟩ : ∃ t : Fin cfg0.N, t.val = (i 0).val / 1024 :=
    ⟨⟨(i 0).val / 1024, by show (i 0).val / 1024 < grid0.N; rw [N_0]; omega⟩, rfl⟩
  obtain ⟨-, -, -, -, e20, e21⟩ := block_indices t
  refine ⟨t, flush0_2 t, ?_⟩
  rw [mem_tile]
  intro a
  match a with
  | ⟨0, _⟩ =>
    show win0_2.index t (0 : Fin 2) * 1024 ≤ (i 0).val ∧ (i 0).val < win0_2.index t (0 : Fin 2) * 1024 + 1024
    rw [e20, ht]; omega
  | ⟨1, _⟩ =>
    show win0_2.index t (1 : Fin 2) * 1024 ≤ (i 1).val ∧ (i 1).val < win0_2.index t (1 : Fin 2) * 1024 + 1024
    rw [e21]; omega

/-- The result array after the run is the logits array. -/
theorem final (c : Dev nD) : (dats m 0 c).arrAt 2 cfg0.N = result m c :=
  (dats m 0 c).arrAt_eq_of_cover 2 (result m c) (fun t _ => flushed_eq m c t) covered

/-- The kernel's run: the result array ends at the logits of the keys and the codebook as launched, both unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.Whole

end
-- ==== Proof.lean ====
/-
  Vector-quantizer logits: a tiled kernel against the plain formula, equal on the extended reals.

  For 18432 keys and a codebook of 1024 codes, each of 64 channels, the logit of key p and code q is minus the squared
  distance between the two rows. The kernel walks the keys in 18 blocks of 1024 rows with the whole codebook resident,
  and writes, per block, the tile

      (2 · Σ_c keys[p,c] · code[q,c] − Σ_c keys[p,c]²) − Σ_c code[q,c]²,

  the cross term a matrix product of the block with the stored codebook (contracting the channel axis of both). The
  reference computes  −((Σ_c keys[p,c]² − 2 · Σ_c keys[p,c] · code[q,c]) + Σ_c code[q,c]²)  on whole arrays.

  The tiles are the restrictions of one whole-array function to the blocks' rows, and the blocks cover the array, so
  the kernel's result is that function of the arguments; the reference's stages read at an index give the second
  arrangement of the same three sums. The two arrangements differ by expanding a negation over a sum, which on the
  extended reals is sound away from opposite infinities: the precondition (every input entry has absolute value below
  +inf) makes every entry a real number, hence every sum a real number, and the identity is the real one.

  Both kernel programs run by their frames; the reference's frame is its run with the result dropped; the idealization
  rewrote no operation, so there is nothing to preserve.
-/
import proofs.«106355_g22522808500718_cont_8to1_552_3_alg».proof.Defs
import proofs.«106355_g22522808500718_cont_8to1_552_3_alg».proof.Proof.Gen.Kernel
import proofs.«106355_g22522808500718_cont_8to1_552_3_alg».proof.Proof.Gen.Kernel.Skeleton
import proofs.«106355_g22522808500718_cont_8to1_552_3_alg».proof.Proof.Gen.Kernel.Launch
import proofs.«106355_g22522808500718_cont_8to1_552_3_alg».proof.Proof.Gen.Kernel.Points
import proofs.«106355_g22522808500718_cont_8to1_552_3_alg».proof.Proof.Gen.Kernel.Frame
import proofs.«106355_g22522808500718_cont_8to1_552_3_alg».proof.Proof.Gen.KernelIdeal
import proofs.«106355_g22522808500718_cont_8to1_552_3_alg».proof.Proof.Gen.KernelIdeal.Skeleton
import proofs.«106355_g22522808500718_cont_8to1_552_3_alg».proof.Proof.Gen.KernelIdeal.Launch
import proofs.«106355_g22522808500718_cont_8to1_552_3_alg».proof.Proof.Gen.KernelIdeal.Points
import proofs.«106355_g22522808500718_cont_8to1_552_3_alg».proof.Proof.Gen.KernelIdeal.Frame
import proofs.«106355_g22522808500718_cont_8to1_552_3_alg».proof.Proof.Gen.ReferenceIdeal
import proofs.«106355_g22522808500718_cont_8to1_552_3_alg».proof.Proof.Gen.Pre_finite_inputs
import proofs.«106355_g22522808500718_cont_8to1_552_3_alg».proof.Proof.Gen.KernelIdeal.Value
import proofs.«106355_g22522808500718_cont_8to1_552_3_alg».proof.Proof.Gen.ReferenceIdeal.Run
import proofs.«106355_g22522808500718_cont_8to1_552_3_alg».proof.Proof.Gen.ReferenceIdeal.Read
import proofs.«106355_g22522808500718_cont_8to1_552_3_alg».proof.Proof.Spec
import proofs.«106355_g22522808500718_cont_8to1_552_3_alg».proof.Proof.Finite
import proofs.«106355_g22522808500718_cont_8to1_552_3_alg».proof.Proof.RefValue
import proofs.«106355_g22522808500718_cont_8to1_552_3_alg».proof.Proof.Blocks
import Idealize.ShloMosaic.Adequacy
import Idealize.ShloMosaic.Init

noncomputable section

namespace Cert.Proof

open Idealize.ShloMosaic Idealize.SL.Sem

/-- The kernel as printed runs, faults nowhere and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On finite inputs the kernel's logits array and the reference's are one array: the kernel ends at the
    cross-term-first arrangement of the arguments, the reference at the negated squared distance, and the two agree
    where every entry is a real number. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq, (hagree c).1, (hagree c).2]
  obtain ⟨hk, hc⟩ := Cert.Pre_finite_inputs.Finite.entries_real _ _ (hpre c)
  exact Cert.VQ.negDist_eq_logits _ _ hk hc

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
